-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x2 : Shape := ⟨2, ![96, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S96 .f32) (main_arg6 : FVec F S96x2 .f32) (main_arg7 : FVec F S2 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x2 .f32 := Host.absf main_arg6
  let main_cst_8 : FVec F S_ .f32 := constant S_ .f32 0x7F800000#32
  let main_v25 : FVec F S96x2 .f32 := broadcastInDim S96x2 ![] bcast_S_S96x2 main_cst_8
  let main_v26 : IVec S96x2 1 := cmpf .olt main_v24 main_v25
  let main_c_9 : IVec S_ 1 := constantI S_ 1 1#1
  let main_v27 : IVec S_ 1 := (fun x v => Host.reduce IntOp.andi x v reducesTo_S96x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x96 .f32) (main_arg3 : FVec F S96 .f32) (main_arg4 : FVec F S96x96 .f32) (main_arg5 : FVec F S96 .f32) (main_arg6 : FVec F S96x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S5000x128 : Shape := ⟨2, ![5000, 128]⟩
abbrev S5000x96 : Shape := ⟨2, ![5000, 96]⟩
abbrev S800000x96 : Shape := ⟨2, ![800000, 96]⟩
abbrev S50000x1 : Shape := ⟨2, ![50000, 1]⟩
abbrev S1x96 : Shape := ⟨2, ![1, 96]⟩
abbrev S5000x1 : Shape := ⟨2, ![5000, 1]⟩
abbrev S50000x2 : Shape := ⟨2, ![50000, 2]⟩
abbrev S1x2 : Shape := ⟨2, ![1, 2]⟩

abbrev nBuf : Space → Nat
  | .hbm => 102
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000x96, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x96, .f32⟩
  | .hbm, ⟨51, _⟩ => ⟨S800000x1, .f32⟩
  | .hbm, ⟨52, _⟩ => ⟨S800000x96, .f32⟩
  | .hbm, ⟨53, _⟩ => ⟨S800000x96, .f32⟩
  | .hbm, ⟨54, _⟩ => ⟨S_, .f32⟩
  | .hbm, ⟨55, _⟩ => ⟨S50000x96, .f32⟩
  | .hbm, ⟨56, _⟩ => ⟨S800000x1, .i32⟩
  | .hbm, ⟨57, _⟩ => ⟨S50000x96, .f32⟩
  | .hbm, ⟨58, _⟩ => ⟨S50000, .f32⟩
  | .hbm, ⟨59, _⟩ => ⟨S50000x1, .f32⟩
  | .hbm, ⟨60, _⟩ => ⟨S1x96, .f32⟩
  | .hbm, ⟨61, _⟩ => ⟨S50000x96, .f32⟩
  | .hbm, ⟨62, _⟩ => ⟨S50000x96, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x96, .f32⟩
  | .hbm, ⟨72, _⟩ => ⟨S800000x1, .f32⟩
  | .hbm, ⟨73, _⟩ => ⟨S800000x96, .f32⟩
  | .hbm, ⟨74, _⟩ => ⟨S800000x96, .f32⟩
  | .hbm, ⟨75, _⟩ => ⟨S_, .f32⟩
  | .hbm, ⟨76, _⟩ => ⟨S50000x96, .f32⟩
  | .hbm, ⟨77, _⟩ => ⟨S800000x1, .i32⟩
  | .hbm, ⟨78, _⟩ => ⟨S50000x96, .f32⟩
  | .hbm, ⟨79, _⟩ => ⟨S50000, .f32⟩
  | .hbm, ⟨80, _⟩ => ⟨S50000x1, .f32⟩
  | .hbm, ⟨81, _⟩ => ⟨S1x96, .f32⟩
  | .hbm, ⟨82, _⟩ => ⟨S50000x96, .f32⟩
  | .hbm, ⟨83, _⟩ => ⟨S50000x2, .f32⟩
  | .hbm, ⟨84, _⟩ => ⟨S1x2, .f32⟩
  | .hbm, ⟨85, _⟩ => ⟨S50000x2, .f32⟩
  | .hbm, ⟨86, _⟩ => ⟨S50000x2, .f32⟩
  | .hbm, ⟨87, _⟩ => ⟨S_, .f32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x2, .f32⟩
  | .hbm, ⟨94, _⟩ => ⟨S50000x2, .f32⟩
  | .hbm, ⟨95, _⟩ => ⟨S50000x2, .f32⟩
  | .hbm, ⟨96, _⟩ => ⟨S_, .f32⟩
  | .hbm, ⟨97, _⟩ => ⟨S50000, .f32⟩
  | .hbm, ⟨98, _⟩ => ⟨S50000x1, .f32⟩
  | .hbm, ⟨99, _⟩ => ⟨S50000x1, .f32⟩
  | .hbm, ⟨100, _⟩ => ⟨S50000x2, .f32⟩
  | .hbm, ⟨101, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x1, .f32⟩
  | .local _ .vmem, ⟨24, _⟩ => ⟨S5000x1, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call0_cst : Ref sig .tc := ⟨.hbm, 87, rfl⟩
abbrev main_call0_v0 : Ref sig .tc := ⟨.hbm, 88, rfl⟩
abbrev main_call0_cst_0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_cst_1 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_v66 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S50000_S50000x1 : S50000.ShapeCasts S50000x1
  shapeCasts_S96_S1x96 : S96.ShapeCasts S1x96
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x96_S5000x96_1_0_0_1_n_n_wf : DotDims.WF S5000x128 S128x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S50000x96_S96x2_S50000x2_1_0_0_1_n_n_wf : DotDims.WF S50000x96 S96x2 S50000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x2 : Shape := ⟨2, ![50000, 2]⟩
abbrev S1x2 : Shape := ⟨2, ![1, 2]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96x96, .f32⟩
  | 5 => ⟨S96, .f32⟩
  | 6 => ⟨S96x2, .f32⟩
  | 7 => ⟨S2, .f32⟩
  | 8 => ⟨S1x800000, .i32⟩
  | 9 => ⟨S800000, .i32⟩
  | 10 => ⟨S1x800000, .i32⟩
  | 11 => ⟨S800000, .i32⟩
  | 12 => ⟨S50000x96, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x96, .f32⟩
  | 51 => ⟨S800000x1, .f32⟩
  | 52 => ⟨S800000x96, .f32⟩
  | 53 => ⟨S800000x96, .f32⟩
  | 54 => ⟨S_, .f32⟩
  | 55 => ⟨S50000x96, .f32⟩
  | 56 => ⟨S800000x1, .i32⟩
  | 57 => ⟨S50000x96, .f32⟩
  | 58 => ⟨S50000, .f32⟩
  | 59 => ⟨S50000x1, .f32⟩
  | 60 => ⟨S50000x96, .f32⟩
  | 61 => ⟨S50000x96, .f32⟩
  | 62 => ⟨S50000x96, .f32⟩
  | 63 => ⟨S1x96, .f32⟩
  | 64 => ⟨S50000x96, .f32⟩
  | 65 => ⟨S50000x96, .f32⟩
  | 66 => ⟨S_, .f32⟩
  | 67 => ⟨S50000x96, .f32⟩
  | 68 => ⟨S50000x96, .f32⟩
  | 69 => ⟨S50000x96, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x96, .f32⟩
  | 108 => ⟨S800000x1, .f32⟩
  | 109 => ⟨S800000x96, .f32⟩
  | 110 => ⟨S800000x96, .f32⟩
  | 111 => ⟨S_, .f32⟩
  | 112 => ⟨S50000x96, .f32⟩
  | 113 => ⟨S800000x1, .i32⟩
  | 114 => ⟨S50000x96, .f32⟩
  | 115 => ⟨S50000, .f32⟩
  | 116 => ⟨S50000x1, .f32⟩
  | 117 => ⟨S50000x96, .f32⟩
  | 118 => ⟨S50000x96, .f32⟩
  | 119 => ⟨S50000x96, .f32⟩
  | 120 => ⟨S1x96, .f32⟩
  | 121 => ⟨S50000x96, .f32⟩
  | 122 => ⟨S50000x96, .f32⟩
  | 123 => ⟨S_, .f32⟩
  | 124 => ⟨S50000x96, .f32⟩
  | 125 => ⟨S50000x96, .f32⟩
  | 126 => ⟨S50000x2, .f32⟩
  | 127 => ⟨S1x2, .f32⟩
  | _ => ⟨S50000x128, .f32⟩

abbrev hbmTy0_1 (i : Nat) : BufTy := match i % 128 with
  | 0 => ⟨S50000x2, .f32⟩
  | 1 => ⟨S50000x2, .f32⟩
  | 2 => ⟨S_, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x2, .f32⟩
  | 9 => ⟨S50000x2, .f32⟩
  | 10 => ⟨S50000x2, .f32⟩
  | 11 => ⟨S_, .f32⟩
  | 12 => ⟨S50000, .f32⟩
  | 13 => ⟨S50000x1, .f32⟩
  | 14 => ⟨S50000x1, .f32⟩
  | 15 => ⟨S50000x2, .f32⟩
  | 16 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  dot_S50000x128_S128x96_S50000x96_1_0_0_1_n_n_wf : DotDims.WF S50000x128 S128x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x2_S50000x2_1_0_0_1_n_n_wf : DotDims.WF S50000x96 S96x2 S50000x2 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.Spec.lean ====
/-
  The two-layer graph convolution with a linear head and a log-softmax, as ONE function of the eight arguments,
  built from named stages. Nodes 0 .. 49999, 800000 directed edges (row 0 of the edge list the sources, row 1 the
  destinations), features 128 -> 96 -> 96 -> 2.

    dinv = (1 + in-degree)^(-1/2)                      per node
    norm = dinv[src] * dinv[dst]                       per edge
    agg h = scatter-add over dst of h[src] * norm      per node and feature
    layer h b = max (agg h + h * dinv^2 + b, 0)        the dense product h given
    result = log_softmax (layer (layer (x W1) b1 W2) b2 Wc + bc)

  The stages are spelt with the host operations of the reference program, so that the reference's composed result IS
  `result` of its arguments by unfolding. `combine` is the per-entry form of a layer's last step, with the squared
  normaliser as a column and the bias as a row: what one tiled elementwise kernel computes.
-/
import proofs.«122172_j22325240005451_1_alg».proof.Proof.Gen.ReferenceIdeal
import Idealize.ShloMosaic.Lib.ValueIdx
import Idealize.ShloMosaic.PureOps.Ideal

noncomputable section

namespace Cert.Spec

open Idealize.ShloMosaic Idealize.ShloMosaic.ValueIdx Cert.ReferenceIdeal Cert.ReferenceIdeal.Gen

section Stages
variable {F : FTy → Type} [FloatOps F]

/-- Row 0 of the edge list, flat: the edges' source nodes. -/
def srcRow (e : Vec F S2x800000 .i32) : Vec F S800000 .i32 :=
  shapeCast _ (extractStridedSlice S1x800000 ![0, 0] e slices_S2x800000_S1x800000_0_0) shapeCasts_S1x800000_S800000

/-- Row 1 of the edge list, flat: the edges' destination nodes. -/
def dstRow (e : Vec F S2x800000 .i32) : Vec F S800000 .i32 :=
  shapeCast _ (extractStridedSlice S1x800000 ![1, 0] e slices_S2x800000_S1x800000_1_0) shapeCasts_S1x800000_S800000

/-- Node numbers as a gather's index column, a negative one wrapped once by the node count. -/
def wrapCol (v : Vec F S800000 .i32) : Vec F S800000x1 .i32 :=
  broadcastInDim S800000x1 ![0] bcast_S800000_S800000x1_0 (select (cmpi .slt v (broadcastInDim S800000 ![] bcast_S_S800000 (constantI S_ 32 0#32))) (addi v (broadcastInDim S800000 ![] bcast_S_S800000 (constantI S_ 32 50000#32))) v)

/-- (1 + in-degree)^(-1/2) per node, the in-degree counted by a scatter-add of ones over the destinations `d`. -/
def dinv (d : Vec F S800000 .i32) : Vec F S50000 .f32 :=
  Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32)))

/-- The edge weights: the normaliser `di` read at both ends of each edge. -/
def norm (di : Vec F S50000 .f32) (ws wd : Vec F S800000x1 .i32) : Vec F S800000 .f32 :=
  mulf (Host.gather gather_S50000_S800000x1_S800000_n_0_n_n_0_1_1 di ws) (Host.gather gather_S50000_S800000x1_S800000_n_0_n_n_0_1_1 di wd)

/-- Message passing: the rows of `h` at the sources, scaled by the edge weights, summed into the destinations. -/
def agg (d : Vec F S800000 .i32) (ws : Vec F S800000x1 .i32) (nm : Vec F S800000 .f32) (h : Vec F S50000x96 .f32) :
    Vec F S50000x96 .f32 :=
  Host.scatterAdd scatter_S50000x96_S800000x1_S800000x96_1_0_0_1 (broadcastInDim S50000x96 ![] bcast_S_S50000x96 (constant S_ .f32 0x00000000#32)) (broadcastInDim S800000x1 ![0] bcast_S800000_S800000x1_0 d) (mulf (Host.gather gather_S50000x96_S800000x1_S800000x96_1_0_n_n_0_1_196 h ws) (broadcastInDim S800000x96 ![0, 1] bcast_S800000x1_S800000x96_0_1 (broadcastInDim S800000x1 ![0] bcast_S800000_S800000x1_0 nm)))

/-- A layer's last step on whole arrays: aggregated messages plus the self loop `h * di^2` plus the bias, clipped at 0. -/
def layer (ag h : Vec F S50000x96 .f32) (di : Vec F S50000 .f32) (b : Vec F S96 .f32) : Vec F S50000x96 .f32 :=
  maximumf (addf (addf ag (mulf h (broadcastInDim S50000x96 ![0, 1] bcast_S50000x1_S50000x96_0_1 (broadcastInDim S50000x1 ![0] bcast_S50000_S50000x1_0 (mulf di di))))) (broadcastInDim S50000x96 ![0, 1] bcast_S1x96_S50000x96_0_1 (broadcastInDim S1x96 ![1] bcast_S96_S1x96_1 b))) (broadcastInDim S50000x96 ![] bcast_S_S50000x96 (constant S_ .f32 0x00000000#32))

/-- The first dense product, 50000 x 128 by 128 x 96. -/
def dense1 (x : Vec F S50000x128 .f32) (w : Vec F S128x96 .f32) : Vec F S50000x96 .f32 :=
  Host.dotGeneral dot_S50000x128_S128x96_S50000x96_1_0_0_1_n_n none x w

/-- The second dense product, 50000 x 96 by 96 x 96. -/
def dense2 (x : Vec F S50000x96 .f32) (w : Vec F S96x96 .f32) : Vec F S50000x96 .f32 :=
  Host.dotGeneral dot_S50000x96_S96x96_S50000x96_1_0_0_1_n_n none x w

/-- The classifier's logits: 50000 x 96 by 96 x 2, plus the bias row. -/
def logits (h : Vec F S50000x96 .f32) (wc : Vec F S96x2 .f32) (bc : Vec F S2 .f32) : Vec F S50000x2 .f32 :=
  addf (Host.dotGeneral dot_S50000x96_S96x2_S50000x2_1_0_0_1_n_n none h wc) (broadcastInDim S50000x2 ![0, 1] bcast_S1x2_S50000x2_0_1 (broadcastInDim S1x2 ![1] bcast_S2_S1x2_1 bc))

/-- The logits minus their row maximum. -/
def shifted (l : Vec F S50000x2 .f32) : Vec F S50000x2 .f32 :=
  subf l (broadcastInDim S50000x2 ![0, 1] bcast_S50000x1_S50000x2_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x2_S50000_d1 h_S_))))

/-- log-softmax along each row. -/
def logSoftmax (l : Vec F S50000x2 .f32) : Vec F S50000x2 .f32 :=
  subf (shifted l) (broadcastInDim S50000x2 ![0, 1] bcast_S50000x1_S50000x2_0_1 (Host.log (broadcastInDim S50000x1 ![0] bcast_S50000_S50000x1_0 (Host.reduceAdd (Host.exp (shifted l)) (constant S_ .f32 0x00000000#32) reducesTo_S50000x2_S50000_d1 h_S_))))

/-- One graph convolution after its dense product `h`, on the edge list `e`. -/
def conv (e : Vec F S2x800000 .i32) (h : Vec F S50000x96 .f32) (b : Vec F S96 .f32) : Vec F S50000x96 .f32 :=
  layer (agg (dstRow e) (wrapCol (srcRow e)) (norm (dinv (dstRow e)) (wrapCol (srcRow e)) (wrapCol (dstRow e))) h) h (dinv (dstRow e)) b

/-- The network's output as one function of the eight arguments. -/
def result (x : Vec F S50000x128 .f32) (e : Vec F S2x800000 .i32) (w1 : Vec F S128x96 .f32) (b1 : Vec F S96 .f32)
    (w2 : Vec F S96x96 .f32) (b2 : Vec F S96 .f32) (wc : Vec F S96x2 .f32) (bc : Vec F S2 .f32) : Vec F S50000x2 .f32 :=
  logSoftmax (logits (conv e (dense2 (conv e (dense1 x w1) b1) w2) b2) wc bc)

end Stages

/-- A layer's last step entry by entry over the extended reals: the squared normaliser a column `d2`, the bias a row `b`. -/
def combine (ag h : Vec Ideal S50000x96 .f32) (d2 : Vec Ideal S50000x1 .f32) (b : Vec Ideal S1x96 .f32) :
    Vec Ideal S50000x96 .f32 :=
  fun i => max (ag i + h i * d2 (ix2 (i 0) 0) + b (ix2 0 (i 1))) 0

end Cert.Spec

end
-- ==== Proof.LayerEntry.lean ====
/-
  A layer's last step on whole arrays, entry by entry: at row r and feature c the host chain
  max (ag + h * bcast (bcast (di * di)) + bcast (bcast b), bcast 0) reads
  max (ag (r, c) + h (r, c) * (di r * di r) + b c, 0), which is `combine` at (r, c) of the squared normaliser recast as a
  column [50000, 1] and the bias recast as a row [1, 96].
-/
import proofs.«122172_j22325240005451_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Idealize.ShloMosaic Idealize.ShloMosaic.ValueIdx Cert.ReferenceIdeal Cert.ReferenceIdeal.Gen

/-- A vector recast as a column reads its own entry: (r, 0) reads r. -/
theorem column_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The normaliser's square, broadcast along the features, read at (r, c): entry r. -/
theorem bcastCol_apply (d : Vec Ideal S50000 .f32) (r : Fin 50000) (c : Fin 96) :
    broadcastInDim S50000x96 ![0, 1] bcast_S50000x1_S50000x96_0_1 (broadcastInDim S50000x1 ![0] bcast_S50000_S50000x1_0 d) (ix2 r c)
      = d (ix1 r) := by
  rw [broadcastInDim_apply _ _ _ (ix2 r c) (ix2 r (0 : Fin 1)) (fun a => match a with
    | ⟨0, _⟩ => rfl
    | ⟨1, _⟩ => rfl)]
  exact broadcastInDim_apply _ _ _ (ix2 r (0 : Fin 1)) (ix1 r) (fun a => match a with
    | ⟨0, _⟩ => rfl)

/-- The bias, broadcast along the rows, read at (r, c): entry c. -/
theorem bcastRow_apply (b : Vec Ideal S96 .f32) (r : Fin 50000) (c : Fin 96) :
    broadcastInDim S50000x96 ![0, 1] bcast_S1x96_S50000x96_0_1 (broadcastInDim S1x96 ![1] bcast_S96_S1x96_1 b) (ix2 r c)
      = b (ix1 c) := by
  rw [broadcastInDim_apply _ _ _ (ix2 r c) (ix2 (0 : Fin 1) c) (fun a => match a with
    | ⟨0, _⟩ => rfl
    | ⟨1, _⟩ => rfl)]
  exact broadcastInDim_apply _ _ _ (ix2 (0 : Fin 1) c) (ix1 c) (fun a => match a with
    | ⟨0, _⟩ => rfl)

/-- The whole-array layer step is `combine` of the column and the row. -/
theorem layer_eq_combine (ag h : Vec Ideal S50000x96 .f32) (di : Vec Ideal S50000 .f32) (b : Vec Ideal S96 .f32)
    (h1 : S50000.ShapeCasts S50000x1) (h2 : S96.ShapeCasts S1x96) :
    layer ag h di b = combine ag h (shapeCast S50000x1 (mulf (F := Ideal) (φ := .f32) di di) h1) (shapeCast S1x96 b h2) := by
  funext i
  obtain ⟨r, c, rfl⟩ : ∃ (r : Fin 50000) (c : Fin 96), i = ix2 r c := ⟨i 0, i 1, eq_ix2 i⟩
  unfold layer combine
  rw [maximumf_apply, addf_apply, addf_apply, mulf_apply, bcastCol_apply, bcastRow_apply]
  have hc : shapeCast S50000x1 (mulf (F := Ideal) (φ := .f32) di di) h1 (ix2 ((ix2 r c : S50000x96.Idx) 0) 0) = mulf (F := Ideal) (φ := .f32) di di (ix1 r) :=
    column_apply (mulf (F := Ideal) (φ := .f32) di di) h1 r 0
  have hr : shapeCast S1x96 b h2 (ix2 0 ((ix2 r c : S50000x96.Idx) 1)) = b (ix1 c) :=
    shapeCast_a_1a_apply b h2 0 c
  rw [hc, hr]
  have hz : broadcastInDim S50000x96 ![] bcast_S_S50000x96 (constant (F := Ideal) S_ .f32 0x00000000#32) (ix2 r c) = (0 : EReal) :=
    Ideal.ofBits_zero_f32
  rw [hz]

end Cert.Spec

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.MM0.lean ====
/-
  Region 0, the first dense product, from blocks to the array.

  Entry (i, j) of the result is the sum over k < 128 of x (i, k) * w (k, j) on the extended reals. The region computes
  it in ten row blocks of 5000 rows: point t multiplies rows t * 5000 ... t * 5000 + 4999 of x by the whole of w (the
  roundings of both operands to bf16 are the identity on the extended reals, the accumulator starts at zero) and
  writes the product back as rows t * 5000 ... of the result. Row i lies in the block of point i / 5000, so the ten
  blocks cover the result, and each entry written is the entry of the whole product: the same sum over k.
-/
import proofs.«122172_j22325240005451_1_alg».proof.Proof.Gen.KernelIdeal.Frame
import proofs.«122172_j22325240005451_1_alg».proof.Proof.Spec
import proofs.«122172_j22325240005451_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MM0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The host's plain product (rows x contraction times contraction x columns) read at (r, c): the sum over the
    contracted axis of lhs (r, k) * rhs (k, c), the contraction index carried to Fin K. -/
theorem hostDot_apply {φ₁ φ₂ : FTy} (M K N : Nat) (lhs : FVec Ideal ⟨2, ![M, K]⟩ φ₁) (rhs : FVec Ideal ⟨2, ![K, N]⟩ φ₂)
    (r : Fin M) (c : Fin N) :
    Host.dotGeneral (DotDims.plain M K N) none lhs rhs (ix2 r c) = ∑ k : Fin K, lhs (ix2 r k) * rhs (ix2 k c) := by
  show FloatOps.dotGeneral (DotDims.plain M K N) none .single lhs rhs (ix2 r c) = _
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- Entry (r, c) of the dense product of the whole arrays: the sum over k < 128 of x (r, k) * w (k, c). -/
theorem dense1_apply (x : Vec Ideal S50000x128 .f32) (w : Vec Ideal S128x96 .f32) (r : Fin 50000) (c : Fin 96) :
    Cert.Spec.dense1 x w (ix2 r c) = ∑ k : Fin 128, x (ix2 r k) * w (ix2 k c) :=
  hostDot_apply 50000 128 96 x w r c

/-- Entry (r, c) of what one point computes from its row block v0 and the weights v2: the roundings to bf16 are the
    identity on the extended reals, and the product into the zero accumulator is the sum over k < 128. -/
theorem pay_apply (v0 : Vec Ideal S5000x128 .f32) (v2 : Vec Ideal S128x96 .f32) (r : Fin 5000) (c : Fin 96) :
    k0_pay1 (F := Ideal) v0 v2 (ix2 r c) = ∑ k : Fin 128, v0 (ix2 r k) * v2 (ix2 k c) :=
  Cert.LibPlainDot.matmul_plain_apply 5000 128 96 v0 v2 r c

theorem hz : (![0, 0] : Fin 2 → Nat) = fun _ => 0 := funext fun a => by fin_cases a <;> rfl

/-- The block indices over the grid: the row windows (the lhs and the result) are at block row t, column block 0, at
    point t; the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one point's product is the entry of the whole product in the same column and in row n * 5000 + the
    row inside the block, when the point's lhs block v0 is rows n * 5000 ... of x and its rhs block is all of w: both
    are the same sum over k < 128. -/
theorem block_entry (x : Vec Ideal S50000x128 .f32) (w : Vec Ideal S128x96 .f32)
    (v0 : Vec Ideal S5000x128 .f32) (v2 : Vec Ideal S128x96 .f32) (n : Nat)
    (h0 : ∀ (y : S5000x128.Idx) (i : S50000x128.Idx), (i 0).val = n * 5000 + (y 0).val → (i 1).val = (y 1).val → v0 y = x i)
    (h1 : v2 = w)
    (y : S5000x96.Idx) (i : S50000x96.Idx) (hi0 : (i 0).val = n * 5000 + (y 0).val) (hi1 : (i 1).val = (y 1).val) :
    k0_pay1 (F := Ideal) v0 v2 y = Cert.Spec.dense1 x w i := by
  obtain ⟨p, q, rfl⟩ : ∃ (p : Fin 5000) (q : Fin 96), y = ix2 p q := ⟨y 0, y 1, eq_ix2 y⟩
  obtain ⟨r, s, rfl⟩ : ∃ (r : Fin 50000) (s : Fin 96), i = ix2 r s := ⟨i 0, i 1, eq_ix2 i⟩
  obtain rfl : s = q := Fin.ext hi1
  rw [pay_apply, dense1_apply, h1]
  refine Finset.sum_congr rfl fun k _ => ?_
  rw [h0 (ix2 p k) (ix2 r k) hi0 rfl]

variable (V : (c : Dev nD) → (b : Ref sig .tc) → Buf (Elt Ideal) ((c : Thread nD τ).loc b))

/-- What point t writes back is block t of the dense product of the arrays the region finds: the lhs block is rows
    t * 5000 ... of the lhs array, the rhs block is the whole weight matrix, and block row r of the result's block is
    row t * 5000 + r of the result array. -/
theorem flushed_eq (c : Dev nD) (t : Fin cfg0.N) :
    (dat0 (F := Ideal) V c).flushed 2 t = ((cfg0.win 2).blk t).view.read (Elt Ideal) (Cert.Spec.dense1 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x96) hz]
  funext j
  obtain ⟨e0, e1, e2, e3, e4, e5⟩ := idx_facts t
  show k0_pay1 (iblk0 V c 0 t) (iblk0 V c 1 t) ((cfg0.win 2).xinj (grid0.coords t) j)
    = Cert.Spec.dense1 (V c main_arg0) (V c main_arg2) (((cfg0.win 2).blk t).view.emb j)
  refine block_entry _ _ _ _ t.val ?_ ?_ _ _ ?_ ?_
  · intro y i hy0 hy1
    show V c main_arg0 (((cfg0.win 0).blk t).view.emb y) = V c main_arg0 i
    congr 1
    funext a; apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · funext y
    show V c main_arg2 (((cfg0.win 1).blk t).view.emb y) = V c main_arg2 y
    congr 1
    funext a; apply Fin.ext
    match a with
    | ⟨0, _⟩ => show win0_1.index t (0 : Fin 2) * 128 + 1 * (y 0).val = (y 0).val; omega
    | ⟨1, _⟩ => show win0_1.index t (1 : Fin 2) * 96 + 1 * (y 1).val = (y 1).val; omega
  · show win0_2.index t (0 : Fin 2) * 5000 + 1 * (j 0).val = t.val * 5000 + (j 0).val; omega
  · show win0_2.index t (1 : Fin 2) * 96 + 1 * (j 1).val = (j 1).val; omega

/-- An index of the result array is in point t's block iff each coordinate is in the block's range on its axis. -/
theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v26).slice (win0_2.rect t)).set ↔ _
  rw [View.set_slice_whole, Rect.mem_set_unit]
  exact Iff.rfl

/-- Row i of the result array lies in the block of point i / 5000, and every point writes back. -/
theorem cover (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, by show (i 0).val / 5000 < 10; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The result array after all ten points: the dense product of the lhs array and the weights as the region finds them. -/
theorem final (V : (c : Dev nD) → (b : Ref sig .tc) → Buf (Elt Ideal) ((c : Thread nD τ).loc b)) (c : Dev nD) :
    (dat0 (F := Ideal) V c).arrAt 2 cfg0.N = Cert.Spec.dense1 (V c main_arg0) (V c main_arg2) :=
  (dat0 (F := Ideal) V c).arrAt_eq_of_cover 2 (Cert.Spec.dense1 (V c main_arg0) (V c main_arg2))
    (fun t _ => flushed_eq V c t) cover

end Cert.KernelIdeal.MM0

end
-- ==== Proof.CR1.lean ====
import proofs.«122172_j22325240005451_1_alg».proof.Proof.Gen.KernelIdeal.Frame
import proofs.«122172_j22325240005451_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The first layer's last step, tiled over ten row blocks of 5000 rows, is `Spec.combine` of the four arrays it reads.

  Entry (i, j) of the result is  max (ag (i, j) + h (i, j) * d2 (i, 0) + b (0, j), 0):  the aggregated messages `ag` and the
  dense product `h` are 50000 x 96, the squared normaliser `d2` is a column 50000 x 1 and the bias `b` a row 1 x 96.
  Row i lies in row block i / 5000; block t of `ag`, `h`, `d2` and of the result holds rows 5000 t .. 5000 t + 4999, and
  the bias row is read whole at every block. So entry (r, j) of block t of the result depends on entry (r, j) of block t of
  `ag` and of `h`, on entry (r, 0) of block t of `d2`, and on entry (0, j) of `b`: the same four entries
  `Spec.combine` reads at row 5000 t + r.
-/

set_option maxRecDepth 16384

noncomputable section

namespace Cert.KernelIdeal.CR1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The offset of a whole-block load or store: zero on both axes. -/
theorem zero_offsets : (![0, 0] : Fin 2 → Nat) = fun _ => 0 := funext fun a => by fin_cases a <;> rfl

/-! ## One block: the body's arithmetic at an entry -/

/-- A column 5000 x 1 spread over 96 columns: entry (r, j) is the column's entry (r, 0). -/
theorem column_spread_apply (x : Vec Ideal S5000x1 .f32) (r : Fin 5000) (j : Fin 96) :
    broadcastTo S5000x96 x broadcasts_S5000x1_S5000x96 (ix2 r j) = x (ix2 r 0) := by
  refine broadcastTo_apply x _ (ix2 r j) (ix2 r 0) fun a => ?_
  match a with
  | ⟨0, _⟩ => rfl
  | ⟨1, _⟩ => rfl

/-- A row 1 x 96 spread over 5000 rows: entry (r, j) is the row's entry (0, j). -/
theorem row_spread_apply (x : Vec Ideal S1x96 .f32) (r : Fin 5000) (j : Fin 96) :
    broadcastTo S5000x96 x broadcasts_S1x96_S5000x96 (ix2 r j) = x (ix2 0 j) := by
  refine broadcastTo_apply x _ (ix2 r j) (ix2 0 j) fun a => ?_
  match a with
  | ⟨0, _⟩ => rfl
  | ⟨1, _⟩ => rfl

/-- Entry (r, j) of a block of the result: the shape casts are identities, the products, sums and the maximum are
    entrywise, the column contributes its entry (r, 0), the row its entry (0, j), and the clipping constant is the real 0. -/
theorem block_entry (x0 x1 : Vec Ideal S5000x96 .f32) (x2 : Vec Ideal S5000x1 .f32) (x3 : Vec Ideal S1x96 .f32)
    (r : Fin 5000) (j : Fin 96) :
    k1_pay1 (F := Ideal) x0 x1 x2 x3 (ix2 r j) = max (x0 (ix2 r j) + x1 (ix2 r j) * x2 (ix2 r 0) + x3 (ix2 0 j)) 0 := by
  unfold k1_pay1
  simp only [shapeCast_self]
  rw [maximumf_apply, addf_apply, addf_apply, mulf_apply, broadcast_apply, column_spread_apply, row_spread_apply]
  rw [show Scalar.ofBits (F := Ideal) .f32 0x00000000#32 = Ideal.ofBits .f32 0x00000000#32 from rfl, Ideal.ofBits_zero_f32]

/-- Entry (r, j) of a block of the result is `Spec.combine` of whole arrays at `i`, as soon as the four block entries the
    body reads are the four array entries `Spec.combine` reads at `i`. -/
theorem block_entry_eq_combine (x0 x1 : Vec Ideal S5000x96 .f32) (x2 : Vec Ideal S5000x1 .f32) (x3 : Vec Ideal S1x96 .f32)
    (ag h : Vec Ideal S50000x96 .f32) (d2 : Vec Ideal S50000x1 .f32) (b : Vec Ideal S1x96 .f32)
    (r : Fin 5000) (j : Fin 96) (i : S50000x96.Idx)
    (e0 : x0 (ix2 r j) = ag i) (e1 : x1 (ix2 r j) = h i) (e2 : x2 (ix2 r 0) = d2 (ix2 (i 0) 0))
    (e3 : x3 (ix2 0 j) = b (ix2 0 (i 1))) :
    k1_pay1 (F := Ideal) x0 x1 x2 x3 (ix2 r j) = Cert.Spec.combine ag h d2 b i := by
  rw [block_entry, e0, e1, e2, e3]; rfl

/-! ## Which block each grid point reads and writes -/

/-- At grid point `t` the four row-blocked arrays are at row block `t`, column block 0; the bias row is at block (0, 0). -/
theorem block_indices : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What grid point `t` writes back is block `t` of `Spec.combine` of the four arrays: entry (r, j) of the block sits at
    row 5000 t + r, and each input block's entry is its array's entry at that row (the column's at column 0, the bias row's
    at row 0). -/
theorem written_block (V : (c : Dev nD) → (b : Ref sig .tc) → Buf (Elt Ideal) ((c : Thread nD τ).loc b)) (c : Dev nD)
    (t : Fin cfg1.N) :
    (dat1 (F := Ideal) V c).flushed 4 t = ((cfg1.win 4).blk t).view.read (Elt Ideal)
      (Cert.Spec.combine (V c main_v39) (V c main_v26) (V c main_v41) (V c main_v42)) := by
  show (cfg1.win 4).cut (grid1.coords t) ((dat1 V c).after 4 t) = _
  rw [after1_4]
  unfold out1_4
  rw [View.canon_unit_zero zero_offsets]
  simp only [View.ld_unit_zero (S := S5000x96) zero_offsets, View.ld_unit_zero (S := S5000x1) zero_offsets,
    View.ld_unit_zero (S := S1x96) zero_offsets]
  obtain ⟨f00, f01, f10, f11, f20, f21, f30, f31, f40, f41⟩ := block_indices t
  funext y
  have h0 : (y 0).val < 5000 := (y 0).isLt
  have h1 : (y 1).val < 96 := (y 1).isLt
  have hy : (cfg1.win 4).xinj (grid1.coords t) y = ix2 (⟨(y 0).val, h0⟩ : Fin 5000) (⟨(y 1).val, h1⟩ : Fin 96) :=
    funext fun a => Fin.ext (by match a with | ⟨0, _⟩ => rfl | ⟨1, _⟩ => rfl)
  refine (congrArg (k1_pay1 (F := Ideal) (iblk1 V c 0 t) (iblk1 V c 1 t) (iblk1 V c 2 t) (iblk1 V c 3 t)) hy).trans ?_
  rw [View.read_apply]
  refine block_entry_eq_combine _ _ _ _ _ _ _ _ _ _ (((cfg1.win 4).blk t).view.emb y) ?_ ?_ ?_ ?_
  · -- the aggregated messages: same row block, same entry
    show (V c main_v39 : S50000x96.Idx → EReal) (((cfg1.win 0).blk t).view.emb _) = V c main_v39 (((cfg1.win 4).blk t).view.emb y)
    refine congrArg _ (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 96 + 1 * (y 1).val = win1_4.index t (1 : Fin 2) * 96 + 1 * (y 1).val; omega
  · -- the dense product: same row block, same entry
    show (V c main_v26 : S50000x96.Idx → EReal) (((cfg1.win 1).blk t).view.emb _) = V c main_v26 (((cfg1.win 4).blk t).view.emb y)
    refine congrArg _ (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 96 + 1 * (y 1).val = win1_4.index t (1 : Fin 2) * 96 + 1 * (y 1).val; omega
  · -- the squared normaliser: same row, column 0
    show (V c main_v41 : S50000x1.Idx → EReal) (((cfg1.win 2).blk t).view.emb _) = V c main_v41 (ix2 ((((cfg1.win 4).blk t).view.emb y) 0) 0)
    refine congrArg _ (funext fun a => Fin.ext ?_)
    match a with
    | ⟨0, _⟩ => show win1_2.index t (0 : Fin 2) * 5000 + 1 * (y 0).val = win1_4.index t (0 : Fin 2) * 5000 + 1 * (y 0).val; omega
    | ⟨1, _⟩ => show win1_2.index t (1 : Fin 2) * 1 + 1 * 0 = 0; omega
  · -- the bias: row 0, same column
    show (V c main_v42 : S1x96.Idx → EReal) (((cfg1.win 3).blk t).view.emb _) = V c main_v42 (ix2 0 ((((cfg1.win 4).blk t).view.emb y) 1))
    refine congrArg _ (funext fun a => Fin.ext ?_)
    match a with
    | ⟨0, _⟩ => show win1_3.index t (0 : Fin 2) * 1 + 1 * 0 = 0; omega
    | ⟨1, _⟩ => show win1_3.index t (1 : Fin 2) * 96 + 1 * (y 1).val = win1_4.index t (1 : Fin 2) * 96 + 1 * (y 1).val; omega

/-! ## The ten row blocks tile the array -/

/-- An entry of the array lies in grid point `t`'s result block iff each coordinate lies in the block's range on its axis. -/
theorem mem_result_block (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v43).slice (win1_4.rect t)).set ↔ _
  rw [View.set_slice_whole, Rect.mem_set_unit]
  exact Iff.rfl

/-- Row `i` lies in the block of grid point `i / 5000`, which is written back. -/
theorem rows_covered (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, f40, f41⟩ := block_indices t
  refine ⟨t, flush1_4 t, ?_⟩
  rw [mem_result_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 96 ≤ (i 1).val ∧ (i 1).val < win1_4.index t (1 : Fin 2) * 96 + 96; omega

/-- After all ten grid points the result array is `Spec.combine` of the four arrays the region found. -/
theorem final (V : (c : Dev nD) → (b : Ref sig .tc) → Buf (Elt Ideal) ((c : Thread nD τ).loc b)) (c : Dev nD) :
    (dat1 (F := Ideal) V c).arrAt 4 cfg1.N = Cert.Spec.combine (V c main_v39) (V c main_v26) (V c main_v41) (V c main_v42) :=
  (dat1 (F := Ideal) V c).arrAt_eq_of_cover 4 _ (fun t _ => written_block V c t) rows_covered

end Cert.KernelIdeal.CR1

end
-- ==== Proof.ChainA.lean ====
/-
  The kernel program's buffers at the segment boundaries of @main, at the exact instance, each as a stage of the
  specification applied to the launch contents of the arguments — first half: from the launch to the exit of the second
  region. A host stretch's result is the composition of its operations (read off the fold through the stretch); a
  region's output array is what its value lemma says (a dense product; a layer's last step entry by entry, which is the
  whole-array layer step of the squared normaliser and the bias); every other buffer is carried across unchanged.
-/
import proofs.«122172_j22325240005451_1_alg».proof.Proof.Gen.KernelIdeal.Frame
import proofs.«122172_j22325240005451_1_alg».proof.Proof.Spec
import proofs.«122172_j22325240005451_1_alg».proof.Proof.LayerEntry
import proofs.«122172_j22325240005451_1_alg».proof.Proof.MM0
import proofs.«122172_j22325240005451_1_alg».proof.Proof.CR1
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arguments' launch contents -/
abbrev aX (c : Dev nD) : Vec Ideal S50000x128 .f32 := m ((c : Thread nD τ).loc main_arg0)
abbrev aE (c : Dev nD) : Vec Ideal S2x800000 .i32 := m ((c : Thread nD τ).loc main_arg1)
abbrev aW1 (c : Dev nD) : Vec Ideal S128x96 .f32 := m ((c : Thread nD τ).loc main_arg2)
abbrev aB1 (c : Dev nD) : Vec Ideal S96 .f32 := m ((c : Thread nD τ).loc main_arg3)
abbrev aW2 (c : Dev nD) : Vec Ideal S96x96 .f32 := m ((c : Thread nD τ).loc main_arg4)
abbrev aB2 (c : Dev nD) : Vec Ideal S96 .f32 := m ((c : Thread nD τ).loc main_arg5)
abbrev aWC (c : Dev nD) : Vec Ideal S96x2 .f32 := m ((c : Thread nD τ).loc main_arg6)
abbrev aBC (c : Dev nD) : Vec Ideal S2 .f32 := m ((c : Thread nD τ).loc main_arg7)

/-! ## After the first host stretch (the first region's entry) -/
theorem W1_v1 (c : Dev nD) : W1 m ρ c (Proc.devRef .tc main_v1) = Cert.Spec.srcRow (aE m c) := by
  refine Eq.trans (b := ?mid) ?h1 ?h2
  case h1 => show StableHlo.after hostOps0 (W0 m ρ c) (Proc.devRef .tc main_v1) = _; after_results_simp; rfl
  case h2 => rfl
theorem W1_v3 (c : Dev nD) : W1 m ρ c (Proc.devRef .tc main_v3) = Cert.Spec.dstRow (aE m c) := by
  refine Eq.trans (b := ?mid) ?h1 ?h2
  case h1 => show StableHlo.after hostOps0 (W0 m ρ c) (Proc.devRef .tc main_v3) = _; after_results_simp; rfl
  case h2 => rfl
theorem W1_v10 (c : Dev nD) : W1 m ρ c (Proc.devRef .tc main_v10) = Cert.Spec.dinv (Cert.Spec.dstRow (aE m c)) := by
  refine Eq.trans (b := ?mid) ?h1 ?h2
  case h1 => show StableHlo.after hostOps0 (W0 m ρ c) (Proc.devRef .tc main_v10) = _; after_results_simp; rfl
  case h2 => rfl
theorem W1_v25 (c : Dev nD) : W1 m ρ c (Proc.devRef .tc main_v25) = Cert.Spec.norm (Cert.Spec.dinv (Cert.Spec.dstRow (aE m c))) (Cert.Spec.wrapCol (Cert.Spec.srcRow (aE m c))) (Cert.Spec.wrapCol (Cert.Spec.dstRow (aE m c))) := by
  refine Eq.trans (b := ?mid) ?h1 ?h2
  case h1 => show StableHlo.after hostOps0 (W0 m ρ c) (Proc.devRef .tc main_v25) = _; after_results_simp; rfl
  case h2 => rfl
theorem W1_arg0 (c : Dev nD) : W1 m ρ c (Proc.devRef .tc main_arg0) = aX m c := by
  refine Eq.trans (b := ?mid) ?h1 ?h2
  case h1 => show StableHlo.after hostOps0 (W0 m ρ c) (Proc.devRef .tc main_arg0) = _; after_results_simp; rfl
  case h2 => rfl
theorem W1_arg2 (c : Dev nD) : W1 m ρ c (Proc.devRef .tc main_arg2) = aW1 m c := by
  refine Eq.trans (b := ?mid) ?h1 ?h2
  case h1 => show StableHlo.after hostOps0 (W0 m ρ c) (Proc.devRef .tc main_arg2) = _; after_results_simp; rfl
  case h2 => rfl
theorem W1_arg3 (c : Dev nD) : W1 m ρ c (Proc.devRef .tc main_arg3) = aB1 m c := by
  refine Eq.trans (b := ?mid) ?h1 ?h2
  case h1 => show StableHlo.after hostOps0 (W0 m ρ c) (Proc.devRef .tc main_arg3) = _; after_results_simp; rfl
  case h2 => rfl
theorem W1_arg4 (c : Dev nD) : W1 m ρ c (Proc.devRef .tc main_arg4) = aW2 m c := by
  refine Eq.trans (b := ?mid) ?h1 ?h2
  case h1 => show StableHlo.after hostOps0 (W0 m ρ c) (Proc.devRef .tc main_arg4) = _; after_results_simp; rfl
  case h2 => rfl
theorem W1_arg5 (c : Dev nD) : W1 m ρ c (Proc.devRef .tc main_arg5) = aB2 m c := by
  refine Eq.trans (b := ?mid) ?h1 ?h2
  case h1 => show StableHlo.after hostOps0 (W0 m ρ c) (Proc.devRef .tc main_arg5) = _; after_results_simp; rfl
  case h2 => rfl
theorem W1_arg6 (c : Dev nD) : W1 m ρ c (Proc.devRef .tc main_arg6) = aWC m c := by
  refine Eq.trans (b := ?mid) ?h1 ?h2
  case h1 => show StableHlo.after hostOps0 (W0 m ρ c) (Proc.devRef .tc main_arg6) = _; after_results_simp; rfl
  case h2 => rfl
theorem W1_arg7 (c : Dev nD) : W1 m ρ c (Proc.devRef .tc main_arg7) = aBC m c := by
  refine Eq.trans (b := ?mid) ?h1 ?h2
  case h1 => show StableHlo.after hostOps0 (W0 m ρ c) (Proc.devRef .tc main_arg7) = _; after_results_simp; rfl
  case h2 => rfl

/-! ## At the first region's exit: the dense product of the first layer -/
theorem W2_v26 (c : Dev nD) : W2 m ρ c (Proc.devRef .tc main_v26) = Cert.Spec.dense1 (aX m c) (aW1 m c) :=
  (W2_arr m ρ c 2).trans ((Cert.KernelIdeal.MM0.final (V1 m ρ) c).trans (by
    show Cert.Spec.dense1 (W1 m ρ c (Proc.devRef .tc main_arg0)) (W1 m ρ c (Proc.devRef .tc main_arg2)) = _
    rw [W1_arg0, W1_arg2]))
theorem W2_v1 (c : Dev nD) : W2 m ρ c (Proc.devRef .tc main_v1) = Cert.Spec.srcRow (aE m c) :=
  (W2_of_ne m ρ c main_v1 (by decide)).trans (W1_v1 m ρ c)
theorem W2_v3 (c : Dev nD) : W2 m ρ c (Proc.devRef .tc main_v3) = Cert.Spec.dstRow (aE m c) :=
  (W2_of_ne m ρ c main_v3 (by decide)).trans (W1_v3 m ρ c)
theorem W2_v10 (c : Dev nD) : W2 m ρ c (Proc.devRef .tc main_v10) = Cert.Spec.dinv (Cert.Spec.dstRow (aE m c)) :=
  (W2_of_ne m ρ c main_v10 (by decide)).trans (W1_v10 m ρ c)
theorem W2_v25 (c : Dev nD) : W2 m ρ c (Proc.devRef .tc main_v25) = Cert.Spec.norm (Cert.Spec.dinv (Cert.Spec.dstRow (aE m c))) (Cert.Spec.wrapCol (Cert.Spec.srcRow (aE m c))) (Cert.Spec.wrapCol (Cert.Spec.dstRow (aE m c))) :=
  (W2_of_ne m ρ c main_v25 (by decide)).trans (W1_v25 m ρ c)
theorem W2_arg3 (c : Dev nD) : W2 m ρ c (Proc.devRef .tc main_arg3) = aB1 m c :=
  (W2_of_ne m ρ c main_arg3 (by decide)).trans (W1_arg3 m ρ c)
theorem W2_arg4 (c : Dev nD) : W2 m ρ c (Proc.devRef .tc main_arg4) = aW2 m c :=
  (W2_of_ne m ρ c main_arg4 (by decide)).trans (W1_arg4 m ρ c)
theorem W2_arg5 (c : Dev nD) : W2 m ρ c (Proc.devRef .tc main_arg5) = aB2 m c :=
  (W2_of_ne m ρ c main_arg5 (by decide)).trans (W1_arg5 m ρ c)
theorem W2_arg6 (c : Dev nD) : W2 m ρ c (Proc.devRef .tc main_arg6) = aWC m c :=
  (W2_of_ne m ρ c main_arg6 (by decide)).trans (W1_arg6 m ρ c)
theorem W2_arg7 (c : Dev nD) : W2 m ρ c (Proc.devRef .tc main_arg7) = aBC m c :=
  (W2_of_ne m ρ c main_arg7 (by decide)).trans (W1_arg7 m ρ c)

/-! ## After the second host stretch (the second region's entry): the aggregated messages, the column, the row -/
theorem W3_v39 (c : Dev nD) : W3 m ρ c (Proc.devRef .tc main_v39) = Cert.Spec.agg (Cert.Spec.dstRow (aE m c)) (Cert.Spec.wrapCol (Cert.Spec.srcRow (aE m c))) (Cert.Spec.norm (Cert.Spec.dinv (Cert.Spec.dstRow (aE m c))) (Cert.Spec.wrapCol (Cert.Spec.srcRow (aE m c))) (Cert.Spec.wrapCol (Cert.Spec.dstRow (aE m c)))) (Cert.Spec.dense1 (aX m c) (aW1 m c)) := by
  refine Eq.trans (b := ?mid) ?h1 ?h2
  case h1 => show StableHlo.after hostOps1 (W2 m ρ c) (Proc.devRef .tc main_v39) = _; after_results_simp; rfl
  case h2 => rw [W2_v3, W2_v1, W2_v25, W2_v26]; try rfl
theorem W3_v26 (c : Dev nD) : W3 m ρ c (Proc.devRef .tc main_v26) = Cert.Spec.dense1 (aX m c) (aW1 m c) := by
  refine Eq.trans (b := ?mid) ?h1 ?h2
  case h1 => show StableHlo.after hostOps1 (W2 m ρ c) (Proc.devRef .tc main_v26) = _; after_results_simp; rfl
  case h2 => exact W2_v26 m ρ c
theorem W3_v41 (c : Dev nD) : W3 m ρ c (Proc.devRef .tc main_v41) = shapeCast S50000x1 (mulf (F := Ideal) (φ := .f32) (Cert.Spec.dinv (Cert.Spec.dstRow (aE m c))) (Cert.Spec.dinv (Cert.Spec.dstRow (aE m c)))) shapeCasts_S50000_S50000x1 := by
  refine Eq.trans (b := ?mid) ?h1 ?h2
  case h1 => show StableHlo.after hostOps1 (W2 m ρ c) (Proc.devRef .tc main_v41) = _; after_results_simp; rfl
  case h2 => rw [W2_v10]; try rfl
theorem W3_v42 (c : Dev nD) : W3 m ρ c (Proc.devRef .tc main_v42) = shapeCast S1x96 (aB1 m c) shapeCasts_S96_S1x96 := by
  refine Eq.trans (b := ?mid) ?h1 ?h2
  case h1 => show StableHlo.after hostOps1 (W2 m ρ c) (Proc.devRef .tc main_v42) = _; after_results_simp; rfl
  case h2 => rw [W2_arg3]; try rfl
theorem W3_v1 (c : Dev nD) : W3 m ρ c (Proc.devRef .tc main_v1) = Cert.Spec.srcRow (aE m c) := by
  refine Eq.trans (b := ?mid) ?h1 ?h2
  case h1 => show StableHlo.after hostOps1 (W2 m ρ c) (Proc.devRef .tc main_v1) = _; after_results_simp; rfl
  case h2 => exact W2_v1 m ρ c
theorem W3_v3 (c : Dev nD) : W3 m ρ c (Proc.devRef .tc main_v3) = Cert.Spec.dstRow (aE m c) := by
  refine Eq.trans (b := ?mid) ?h1 ?h2
  case h1 => show StableHlo.after hostOps1 (W2 m ρ c) (Proc.devRef .tc main_v3) = _; after_results_simp; rfl
  case h2 => exact W2_v3 m ρ c
theorem W3_v10 (c : Dev nD) : W3 m ρ c (Proc.devRef .tc main_v10) = Cert.Spec.dinv (Cert.Spec.dstRow (aE m c)) := by
  refine Eq.trans (b := ?mid) ?h1 ?h2
  case h1 => show StableHlo.after hostOps1 (W2 m ρ c) (Proc.devRef .tc main_v10) = _; after_results_simp; rfl
  case h2 => exact W2_v10 m ρ c
theorem W3_v25 (c : Dev nD) : W3 m ρ c (Proc.devRef .tc main_v25) = Cert.Spec.norm (Cert.Spec.dinv (Cert.Spec.dstRow (aE m c))) (Cert.Spec.wrapCol (Cert.Spec.srcRow (aE m c))) (Cert.Spec.wrapCol (Cert.Spec.dstRow (aE m c))) := by
  refine Eq.trans (b := ?mid) ?h1 ?h2
  case h1 => show StableHlo.after hostOps1 (W2 m ρ c) (Proc.devRef .tc main_v25) = _; after_results_simp; rfl
  case h2 => exact W2_v25 m ρ c
theorem W3_arg4 (c : Dev nD) : W3 m ρ c (Proc.devRef .tc main_arg4) = aW2 m c := by
  refine Eq.trans (b := ?mid) ?h1 ?h2
  case h1 => show StableHlo.after hostOps1 (W2 m ρ c) (Proc.devRef .tc main_arg4) = _; after_results_simp; rfl
  case h2 => exact W2_arg4 m ρ c
theorem W3_arg5 (c : Dev nD) : W3 m ρ c (Proc.devRef .tc main_arg5) = aB2 m c := by
  refine Eq.trans (b := ?mid) ?h1 ?h2
  case h1 => show StableHlo.after hostOps1 (W2 m ρ c) (Proc.devRef .tc main_arg5) = _; after_results_simp; rfl
  case h2 => exact W2_arg5 m ρ c
theorem W3_arg6 (c : Dev nD) : W3 m ρ c (Proc.devRef .tc main_arg6) = aWC m c := by
  refine Eq.trans (b := ?mid) ?h1 ?h2
  case h1 => show StableHlo.after hostOps1 (W2 m ρ c) (Proc.devRef .tc main_arg6) = _; after_results_simp; rfl
  case h2 => exact W2_arg6 m ρ c
theorem W3_arg7 (c : Dev nD) : W3 m ρ c (Proc.devRef .tc main_arg7) = aBC m c := by
  refine Eq.trans (b := ?mid) ?h1 ?h2
  case h1 => show StableHlo.after hostOps1 (W2 m ρ c) (Proc.devRef .tc main_arg7) = _; after_results_simp; rfl
  case h2 => exact W2_arg7 m ρ c

/-! ## At the second region's exit: the first layer's output -/
theorem W4_v43 (c : Dev nD) : W4 m ρ c (Proc.devRef .tc main_v43) = Cert.Spec.conv (aE m c) (Cert.Spec.dense1 (aX m c) (aW1 m c)) (aB1 m c) :=
  (W4_arr m ρ c 4).trans ((Cert.KernelIdeal.CR1.final (V3 m ρ) c).trans (by
    show Cert.Spec.combine (W3 m ρ c (Proc.devRef .tc main_v39)) (W3 m ρ c (Proc.devRef .tc main_v26)) (W3 m ρ c (Proc.devRef .tc main_v41)) (W3 m ρ c (Proc.devRef .tc main_v42)) = _
    rw [W3_v39, W3_v26, W3_v41, W3_v42, ← Cert.Spec.layer_eq_combine]
    rfl))
theorem W4_v1 (c : Dev nD) : W4 m ρ c (Proc.devRef .tc main_v1) = Cert.Spec.srcRow (aE m c) :=
  (W4_of_ne m ρ c main_v1 (by decide)).trans (W3_v1 m ρ c)
theorem W4_v3 (c : Dev nD) : W4 m ρ c (Proc.devRef .tc main_v3) = Cert.Spec.dstRow (aE m c) :=
  (W4_of_ne m ρ c main_v3 (by decide)).trans (W3_v3 m ρ c)
theorem W4_v10 (c : Dev nD) : W4 m ρ c (Proc.devRef .tc main_v10) = Cert.Spec.dinv (Cert.Spec.dstRow (aE m c)) :=
  (W4_of_ne m ρ c main_v10 (by decide)).trans (W3_v10 m ρ c)
theorem W4_v25 (c : Dev nD) : W4 m ρ c (Proc.devRef .tc main_v25) = Cert.Spec.norm (Cert.Spec.dinv (Cert.Spec.dstRow (aE m c))) (Cert.Spec.wrapCol (Cert.Spec.srcRow (aE m c))) (Cert.Spec.wrapCol (Cert.Spec.dstRow (aE m c))) :=
  (W4_of_ne m ρ c main_v25 (by decide)).trans (W3_v25 m ρ c)
theorem W4_arg4 (c : Dev nD) : W4 m ρ c (Proc.devRef .tc main_arg4) = aW2 m c :=
  (W4_of_ne m ρ c main_arg4 (by decide)).trans (W3_arg4 m ρ c)
theorem W4_arg5 (c : Dev nD) : W4 m ρ c (Proc.devRef .tc main_arg5) = aB2 m c :=
  (W4_of_ne m ρ c main_arg5 (by decide)).trans (W3_arg5 m ρ c)
theorem W4_arg6 (c : Dev nD) : W4 m ρ c (Proc.devRef .tc main_arg6) = aWC m c :=
  (W4_of_ne m ρ c main_arg6 (by decide)).trans (W3_arg6 m ρ c)
theorem W4_arg7 (c : Dev nD) : W4 m ρ c (Proc.devRef .tc main_arg7) = aBC m c :=
  (W4_of_ne m ρ c main_arg7 (by decide)).trans (W3_arg7 m ρ c)

end Cert.KernelIdeal.Chain

end
-- ==== Proof.MM2.lean ====
/-
  Region 2, the second dense product, from blocks to the array.

  Entry (i, j) of the result is the sum over k < 96 of h (i, k) * w (k, j) on the extended reals. The region computes
  it in ten row blocks of 5000 rows: point t multiplies rows t * 5000 ... t * 5000 + 4999 of h by the whole of w (the
  recast of the block to its own shape and the roundings of both operands to bf16 are the identity on the extended
  reals, the accumulator starts at zero) and writes the product back as rows t * 5000 ... of the result. Row i lies
  in the block of point i / 5000, so the ten blocks cover the result, and each entry written is the entry of the whole
  product: the same sum over k.
-/
import proofs.«122172_j22325240005451_1_alg».proof.Proof.Gen.KernelIdeal.Frame
import proofs.«122172_j22325240005451_1_alg».proof.Proof.Spec
import proofs.«122172_j22325240005451_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MM2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The host's plain product (rows x contraction times contraction x columns) read at (r, c): the sum over the
    contracted axis of lhs (r, k) * rhs (k, c), the contraction index carried to Fin K. -/
theorem hostDot_apply {φ₁ φ₂ : FTy} (M K N : Nat) (lhs : FVec Ideal ⟨2, ![M, K]⟩ φ₁) (rhs : FVec Ideal ⟨2, ![K, N]⟩ φ₂)
    (r : Fin M) (c : Fin N) :
    Host.dotGeneral (DotDims.plain M K N) none lhs rhs (ix2 r c) = ∑ k : Fin K, lhs (ix2 r k) * rhs (ix2 k c) := by
  show FloatOps.dotGeneral (DotDims.plain M K N) none .single lhs rhs (ix2 r c) = _
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- Entry (r, c) of the dense product of the whole arrays: the sum over k < 96 of x (r, k) * w (k, c). -/
theorem dense2_apply (x : Vec Ideal S50000x96 .f32) (w : Vec Ideal S96x96 .f32) (r : Fin 50000) (c : Fin 96) :
    Cert.Spec.dense2 x w (ix2 r c) = ∑ k : Fin 96, x (ix2 r k) * w (ix2 k c) :=
  hostDot_apply 50000 96 96 x w r c

/-- Entry (r, c) of what one point computes from its row block v0 and the weights v3: the recast of v0 to its own shape
    is v0, the roundings to bf16 are the identity on the extended reals, and the product into the zero accumulator is
    the sum over k < 96. -/
theorem pay_apply (v0 : Vec Ideal S5000x96 .f32) (v3 : Vec Ideal S96x96 .f32) (r : Fin 5000) (c : Fin 96) :
    k2_pay1 (F := Ideal) v0 v3 (ix2 r c) = ∑ k : Fin 96, v0 (ix2 r k) * v3 (ix2 k c) := by
  unfold k2_pay1
  rw [shapeCast_self]
  exact Cert.LibPlainDot.matmul_plain_apply 5000 96 96 v0 v3 r c

theorem hz : (![0, 0] : Fin 2 → Nat) = fun _ => 0 := funext fun a => by fin_cases a <;> rfl

/-- The block indices over the grid: the row windows (the lhs and the result) are at block row t, column block 0, at
    point t; the weight window stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of one point's product is the entry of the whole product in the same column and in row n * 5000 + the
    row inside the block, when the point's lhs block v0 is rows n * 5000 ... of x and its rhs block is all of w: both
    are the same sum over k < 96. -/
theorem block_entry (x : Vec Ideal S50000x96 .f32) (w : Vec Ideal S96x96 .f32)
    (v0 : Vec Ideal S5000x96 .f32) (v2 : Vec Ideal S96x96 .f32) (n : Nat)
    (h0 : ∀ (y : S5000x96.Idx) (i : S50000x96.Idx), (i 0).val = n * 5000 + (y 0).val → (i 1).val = (y 1).val → v0 y = x i)
    (h1 : v2 = w)
    (y : S5000x96.Idx) (i : S50000x96.Idx) (hi0 : (i 0).val = n * 5000 + (y 0).val) (hi1 : (i 1).val = (y 1).val) :
    k2_pay1 (F := Ideal) v0 v2 y = Cert.Spec.dense2 x w i := by
  obtain ⟨p, q, rfl⟩ : ∃ (p : Fin 5000) (q : Fin 96), y = ix2 p q := ⟨y 0, y 1, eq_ix2 y⟩
  obtain ⟨r, s, rfl⟩ : ∃ (r : Fin 50000) (s : Fin 96), i = ix2 r s := ⟨i 0, i 1, eq_ix2 i⟩
  obtain rfl : s = q := Fin.ext hi1
  rw [pay_apply, dense2_apply, h1]
  refine Finset.sum_congr rfl fun k _ => ?_
  rw [h0 (ix2 p k) (ix2 r k) hi0 rfl]

variable (V : (c : Dev nD) → (b : Ref sig .tc) → Buf (Elt Ideal) ((c : Thread nD τ).loc b))

/-- What point t writes back is block t of the dense product of the arrays the region finds: the lhs block is rows
    t * 5000 ... of the lhs array, the rhs block is the whole weight matrix, and block row r of the result's block is
    row t * 5000 + r of the result array. -/
theorem flushed_eq (c : Dev nD) (t : Fin cfg2.N) :
    (dat2 (F := Ideal) V c).flushed 2 t = ((cfg2.win 2).blk t).view.read (Elt Ideal) (Cert.Spec.dense2 (V c main_v43) (V c main_arg4)) := by
  show (cfg2.win 2).cut (grid2.coords t) ((dat2 V c).after 2 t) = _
  rw [after2_2]
  unfold out2_2
  rw [View.canon_unit_zero hz]
  simp only [View.ld_unit_zero (S := S5000x96) hz, View.ld_unit_zero (S := S96x96) hz]
  funext j
  obtain ⟨e0, e1, e2, e3, e4, e5⟩ := idx_facts t
  show k2_pay1 (iblk2 V c 0 t) (iblk2 V c 1 t) ((cfg2.win 2).xinj (grid2.coords t) j)
    = Cert.Spec.dense2 (V c main_v43) (V c main_arg4) (((cfg2.win 2).blk t).view.emb j)
  refine block_entry _ _ _ _ t.val ?_ ?_ _ _ ?_ ?_
  · intro y i hy0 hy1
    show V c main_v43 (((cfg2.win 0).blk t).view.emb y) = V c main_v43 i
    congr 1
    funext a; apply Fin.ext
    match a with
    | ⟨0, _⟩ => show win2_0.index t (0 : Fin 2) * 5000 + 1 * (y 0).val = (i 0).val; omega
    | ⟨1, _⟩ => show win2_0.index t (1 : Fin 2) * 96 + 1 * (y 1).val = (i 1).val; omega
  · funext y
    show V c main_arg4 (((cfg2.win 1).blk t).view.emb y) = V c main_arg4 y
    congr 1
    funext a; apply Fin.ext
    match a with
    | ⟨0, _⟩ => show win2_1.index t (0 : Fin 2) * 96 + 1 * (y 0).val = (y 0).val; omega
    | ⟨1, _⟩ => show win2_1.index t (1 : Fin 2) * 96 + 1 * (y 1).val = (y 1).val; omega
  · show win2_2.index t (0 : Fin 2) * 5000 + 1 * (j 0).val = t.val * 5000 + (j 0).val; omega
  · show win2_2.index t (1 : Fin 2) * 96 + 1 * (j 1).val = (j 1).val; omega

/-- An index of the result array is in point t's block iff each coordinate is in the block's range on its axis. -/
theorem mem_blk (t : Fin cfg2.N) (i : S50000x96.Idx) :
    i ∈ ((cfg2.win 2).blk t).view.set ↔ ∀ a : Fin 2, win2_2.index t a * S5000x96.size a ≤ (i a).val ∧ (i a).val < win2_2.index t a * S5000x96.size a + S5000x96.size a := by
  show i ∈ ((View.whole main_v44).slice (win2_2.rect t)).set ↔ _
  rw [View.set_slice_whole, Rect.mem_set_unit]
  exact Iff.rfl

/-- Row i of the result array lies in the block of point i / 5000, and every point writes back. -/
theorem cover (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  obtain ⟨t, ht⟩ : ∃ t : Fin cfg2.N, t.val = (i 0).val / 5000 :=
    ⟨⟨(i 0).val / 5000, by show (i 0).val / 5000 < 10; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 96 ≤ (i 1).val ∧ (i 1).val < win2_2.index t (1 : Fin 2) * 96 + 96; omega

/-- The result array after all ten points: the dense product of the lhs array and the weights as the region finds them. -/
theorem final (V : (c : Dev nD) → (b : Ref sig .tc) → Buf (Elt Ideal) ((c : Thread nD τ).loc b)) (c : Dev nD) :
    (dat2 (F := Ideal) V c).arrAt 2 cfg2.N = Cert.Spec.dense2 (V c main_v43) (V c main_arg4) :=
  (dat2 (F := Ideal) V c).arrAt_eq_of_cover 2 (Cert.Spec.dense2 (V c main_v43) (V c main_arg4))
    (fun t _ => flushed_eq V c t) cover

end Cert.KernelIdeal.MM2

end
-- ==== Proof.CR3.lean ====
import proofs.«122172_j22325240005451_1_alg».proof.Proof.Gen.KernelIdeal.Frame
import proofs.«122172_j22325240005451_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The second layer's last step, tiled over ten row blocks of 5000 rows, is `Spec.combine` of the four arrays it reads.

  Entry (i, j) of the result is  max (ag (i, j) + h (i, j) * d2 (i, 0) + b (0, j), 0):  the aggregated messages `ag` and the
  dense product `h` are 50000 x 96, the squared normaliser `d2` is a column 50000 x 1 and the bias `b` a row 1 x 96.
  Row i lies in row block i / 5000; block t of `ag`, `h`, `d2` and of the result holds rows 5000 t .. 5000 t + 4999, and
  the bias row is read whole at every block. So entry (r, j) of block t of the result depends on entry (r, j) of block t of
  `ag` and of `h`, on entry (r, 0) of block t of `d2`, and on entry (0, j) of `b`: the same four entries
  `Spec.combine` reads at row 5000 t + r.
-/

set_option maxRecDepth 16384

noncomputable section

namespace Cert.KernelIdeal.CR3

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The offset of a whole-block load or store: zero on both axes. -/
theorem zero_offsets : (![0, 0] : Fin 2 → Nat) = fun _ => 0 := funext fun a => by fin_cases a <;> rfl

/-! ## One block: the body's arithmetic at an entry -/

/-- A column 5000 x 1 spread over 96 columns: entry (r, j) is the column's entry (r, 0). -/
theorem column_spread_apply (x : Vec Ideal S5000x1 .f32) (r : Fin 5000) (j : Fin 96) :
    broadcastTo S5000x96 x broadcasts_S5000x1_S5000x96 (ix2 r j) = x (ix2 r 0) := by
  refine broadcastTo_apply x _ (ix2 r j) (ix2 r 0) fun a => ?_
  match a with
  | ⟨0, _⟩ => rfl
  | ⟨1, _⟩ => rfl

/-- A row 1 x 96 spread over 5000 rows: entry (r, j) is the row's entry (0, j). -/
theorem row_spread_apply (x : Vec Ideal S1x96 .f32) (r : Fin 5000) (j : Fin 96) :
    broadcastTo S5000x96 x broadcasts_S1x96_S5000x96 (ix2 r j) = x (ix2 0 j) := by
  refine broadcastTo_apply x _ (ix2 r j) (ix2 0 j) fun a => ?_
  match a with
  | ⟨0, _⟩ => rfl
  | ⟨1, _⟩ => rfl

/-- Entry (r, j) of a block of the result: the shape casts are identities, the products, sums and the maximum are
    entrywise, the column contributes its entry (r, 0), the row its entry (0, j), and the clipping constant is the real 0. -/
theorem block_entry (x0 x1 : Vec Ideal S5000x96 .f32) (x2 : Vec Ideal S5000x1 .f32) (x3 : Vec Ideal S1x96 .f32)
    (r : Fin 5000) (j : Fin 96) :
    k3_pay1 (F := Ideal) x0 x1 x2 x3 (ix2 r j) = max (x0 (ix2 r j) + x1 (ix2 r j) * x2 (ix2 r 0) + x3 (ix2 0 j)) 0 := by
  unfold k3_pay1
  simp only [shapeCast_self]
  rw [maximumf_apply, addf_apply, addf_apply, mulf_apply, broadcast_apply, column_spread_apply, row_spread_apply]
  rw [show Scalar.ofBits (F := Ideal) .f32 0x00000000#32 = Ideal.ofBits .f32 0x00000000#32 from rfl, Ideal.ofBits_zero_f32]

/-- Entry (r, j) of a block of the result is `Spec.combine` of whole arrays at `i`, as soon as the four block entries the
    body reads are the four array entries `Spec.combine` reads at `i`. -/
theorem block_entry_eq_combine (x0 x1 : Vec Ideal S5000x96 .f32) (x2 : Vec Ideal S5000x1 .f32) (x3 : Vec Ideal S1x96 .f32)
    (ag h : Vec Ideal S50000x96 .f32) (d2 : Vec Ideal S50000x1 .f32) (b : Vec Ideal S1x96 .f32)
    (r : Fin 5000) (j : Fin 96) (i : S50000x96.Idx)
    (e0 : x0 (ix2 r j) = ag i) (e1 : x1 (ix2 r j) = h i) (e2 : x2 (ix2 r 0) = d2 (ix2 (i 0) 0))
    (e3 : x3 (ix2 0 j) = b (ix2 0 (i 1))) :
    k3_pay1 (F := Ideal) x0 x1 x2 x3 (ix2 r j) = Cert.Spec.combine ag h d2 b i := by
  rw [block_entry, e0, e1, e2, e3]; rfl

/-! ## Which block each grid point reads and writes -/

/-- At grid point `t` the four row-blocked arrays are at row block `t`, column block 0; the bias row is at block (0, 0). -/
theorem block_indices : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- What grid point `t` writes back is block `t` of `Spec.combine` of the four arrays: entry (r, j) of the block sits at
    row 5000 t + r, and each input block's entry is its array's entry at that row (the column's at column 0, the bias row's
    at row 0). -/
theorem written_block (V : (c : Dev nD) → (b : Ref sig .tc) → Buf (Elt Ideal) ((c : Thread nD τ).loc b)) (c : Dev nD)
    (t : Fin cfg3.N) :
    (dat3 (F := Ideal) V c).flushed 4 t = ((cfg3.win 4).blk t).view.read (Elt Ideal)
      (Cert.Spec.combine (V c main_v57) (V c main_v44) (V c main_v59) (V c main_v60)) := by
  show (cfg3.win 4).cut (grid3.coords t) ((dat3 V c).after 4 t) = _
  rw [after3_4]
  unfold out3_4
  rw [View.canon_unit_zero zero_offsets]
  simp only [View.ld_unit_zero (S := S5000x96) zero_offsets, View.ld_unit_zero (S := S5000x1) zero_offsets,
    View.ld_unit_zero (S := S1x96) zero_offsets]
  obtain ⟨f00, f01, f10, f11, f20, f21, f30, f31, f40, f41⟩ := block_indices t
  funext y
  have h0 : (y 0).val < 5000 := (y 0).isLt
  have h1 : (y 1).val < 96 := (y 1).isLt
  have hy : (cfg3.win 4).xinj (grid3.coords t) y = ix2 (⟨(y 0).val, h0⟩ : Fin 5000) (⟨(y 1).val, h1⟩ : Fin 96) :=
    funext fun a => Fin.ext (by match a with | ⟨0, _⟩ => rfl | ⟨1, _⟩ => rfl)
  refine (congrArg (k3_pay1 (F := Ideal) (iblk3 V c 0 t) (iblk3 V c 1 t) (iblk3 V c 2 t) (iblk3 V c 3 t)) hy).trans ?_
  rw [View.read_apply]
  refine block_entry_eq_combine _ _ _ _ _ _ _ _ _ _ (((cfg3.win 4).blk t).view.emb y) ?_ ?_ ?_ ?_
  · -- the aggregated messages: same row block, same entry
    show (V c main_v57 : S50000x96.Idx → EReal) (((cfg3.win 0).blk t).view.emb _) = V c main_v57 (((cfg3.win 4).blk t).view.emb y)
    refine congrArg _ (funext fun a => Fin.ext ?_)
    match a with
    | ⟨0, _⟩ => show win3_0.index t (0 : Fin 2) * 5000 + 1 * (y 0).val = win3_4.index t (0 : Fin 2) * 5000 + 1 * (y 0).val; omega
    | ⟨1, _⟩ => show win3_0.index t (1 : Fin 2) * 96 + 1 * (y 1).val = win3_4.index t (1 : Fin 2) * 96 + 1 * (y 1).val; omega
  · -- the dense product: same row block, same entry
    show (V c main_v44 : S50000x96.Idx → EReal) (((cfg3.win 1).blk t).view.emb _) = V c main_v44 (((cfg3.win 4).blk t).view.emb y)
    refine congrArg _ (funext fun a => Fin.ext ?_)
    match a with
    | ⟨0, _⟩ => show win3_1.index t (0 : Fin 2) * 5000 + 1 * (y 0).val = win3_4.index t (0 : Fin 2) * 5000 + 1 * (y 0).val; omega
    | ⟨1, _⟩ => show win3_1.index t (1 : Fin 2) * 96 + 1 * (y 1).val = win3_4.index t (1 : Fin 2) * 96 + 1 * (y 1).val; omega
  · -- the squared normaliser: same row, column 0
    show (V c main_v59 : S50000x1.Idx → EReal) (((cfg3.win 2).blk t).view.emb _) = V c main_v59 (ix2 ((((cfg3.win 4).blk t).view.emb y) 0) 0)
    refine congrArg _ (funext fun a => Fin.ext ?_)
    match a with
    | ⟨0, _⟩ => show win3_2.index t (0 : Fin 2) * 5000 + 1 * (y 0).val = win3_4.index t (0 : Fin 2) * 5000 + 1 * (y 0).val; omega
    | ⟨1, _⟩ => show win3_2.index t (1 : Fin 2) * 1 + 1 * 0 = 0; omega
  · -- the bias: row 0, same column
    show (V c main_v60 : S1x96.Idx → EReal) (((cfg3.win 3).blk t).view.emb _) = V c main_v60 (ix2 0 ((((cfg3.win 4).blk t).view.emb y) 1))
    refine congrArg _ (funext fun a => Fin.ext ?_)
    match a with
    | ⟨0, _⟩ => show win3_3.index t (0 : Fin 2) * 1 + 1 * 0 = 0; omega
    | ⟨1, _⟩ => show win3_3.index t (1 : Fin 2) * 96 + 1 * (y 1).val = win3_4.index t (1 : Fin 2) * 96 + 1 * (y 1).val; omega

/-! ## The ten row blocks tile the array -/

/-- An entry of the array lies in grid point `t`'s result block iff each coordinate lies in the block's range on its axis. -/
theorem mem_result_block (t : Fin cfg3.N) (i : S50000x96.Idx) :
    i ∈ ((cfg3.win 4).blk t).view.set ↔ ∀ a : Fin 2, win3_4.index t a * S5000x96.size a ≤ (i a).val ∧ (i a).val < win3_4.index t a * S5000x96.size a + S5000x96.size a := by
  show i ∈ ((View.whole main_v61).slice (win3_4.rect t)).set ↔ _
  rw [View.set_slice_whole, Rect.mem_set_unit]
  exact Iff.rfl

/-- Row `i` lies in the block of grid point `i / 5000`, which is written back. -/
theorem rows_covered (i : S50000x96.Idx) :
    ∃ t : Fin cfg3.N, (cfg3.win 4).flush t = true ∧ i ∈ ((cfg3.win 4).blk t).view.set := by
  have hi0 : (i 0).val < 50000 := (i 0).isLt
  have hi1 : (i 1).val < 96 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, f40, f41⟩ := block_indices t
  refine ⟨t, flush3_4 t, ?_⟩
  rw [mem_result_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 96 ≤ (i 1).val ∧ (i 1).val < win3_4.index t (1 : Fin 2) * 96 + 96; omega

/-- After all ten grid points the result array is `Spec.combine` of the four arrays the region found. -/
theorem final (V : (c : Dev nD) → (b : Ref sig .tc) → Buf (Elt Ideal) ((c : Thread nD τ).loc b)) (c : Dev nD) :
    (dat3 (F := Ideal) V c).arrAt 4 cfg3.N = Cert.Spec.combine (V c main_v57) (V c main_v44) (V c main_v59) (V c main_v60) :=
  (dat3 (F := Ideal) V c).arrAt_eq_of_cover 4 _ (fun t _ => written_block V c t) rows_covered

end Cert.KernelIdeal.CR3

end
-- ==== Proof.ChainB.lean ====
/-
  The kernel program's buffers at the segment boundaries of @main, second half: from the third region (the second
  layer's dense product) to the return. The last boundary's result buffer is the specification's `result` of the launch
  contents of the eight arguments.
-/
import proofs.«122172_j22325240005451_1_alg».proof.Proof.ChainA
import proofs.«122172_j22325240005451_1_alg».proof.Proof.MM2
import proofs.«122172_j22325240005451_1_alg».proof.Proof.CR3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## At the third region's exit: the dense product of the second layer -/
theorem W5_v44 (c : Dev nD) : W5 m ρ c (Proc.devRef .tc main_v44) = Cert.Spec.dense2 (Cert.Spec.conv (aE m c) (Cert.Spec.dense1 (aX m c) (aW1 m c)) (aB1 m c)) (aW2 m c) :=
  (W5_arr m ρ c 2).trans ((Cert.KernelIdeal.MM2.final (V4 m ρ) c).trans (by
    show Cert.Spec.dense2 (W4 m ρ c (Proc.devRef .tc main_v43)) (W4 m ρ c (Proc.devRef .tc main_arg4)) = _
    rw [W4_v43, W4_arg4]))
theorem W5_v1 (c : Dev nD) : W5 m ρ c (Proc.devRef .tc main_v1) = Cert.Spec.srcRow (aE m c) :=
  (W5_of_ne m ρ c main_v1 (by decide)).trans (W4_v1 m ρ c)
theorem W5_v3 (c : Dev nD) : W5 m ρ c (Proc.devRef .tc main_v3) = Cert.Spec.dstRow (aE m c) :=
  (W5_of_ne m ρ c main_v3 (by decide)).trans (W4_v3 m ρ c)
theorem W5_v10 (c : Dev nD) : W5 m ρ c (Proc.devRef .tc main_v10) = Cert.Spec.dinv (Cert.Spec.dstRow (aE m c)) :=
  (W5_of_ne m ρ c main_v10 (by decide)).trans (W4_v10 m ρ c)
theorem W5_v25 (c : Dev nD) : W5 m ρ c (Proc.devRef .tc main_v25) = Cert.Spec.norm (Cert.Spec.dinv (Cert.Spec.dstRow (aE m c))) (Cert.Spec.wrapCol (Cert.Spec.srcRow (aE m c))) (Cert.Spec.wrapCol (Cert.Spec.dstRow (aE m c))) :=
  (W5_of_ne m ρ c main_v25 (by decide)).trans (W4_v25 m ρ c)
theorem W5_arg5 (c : Dev nD) : W5 m ρ c (Proc.devRef .tc main_arg5) = aB2 m c :=
  (W5_of_ne m ρ c main_arg5 (by decide)).trans (W4_arg5 m ρ c)
theorem W5_arg6 (c : Dev nD) : W5 m ρ c (Proc.devRef .tc main_arg6) = aWC m c :=
  (W5_of_ne m ρ c main_arg6 (by decide)).trans (W4_arg6 m ρ c)
theorem W5_arg7 (c : Dev nD) : W5 m ρ c (Proc.devRef .tc main_arg7) = aBC m c :=
  (W5_of_ne m ρ c main_arg7 (by decide)).trans (W4_arg7 m ρ c)

/-! ## After the third host stretch (the fourth region's entry) -/
theorem W6_v57 (c : Dev nD) : W6 m ρ c (Proc.devRef .tc main_v57) = Cert.Spec.agg (Cert.Spec.dstRow (aE m c)) (Cert.Spec.wrapCol (Cert.Spec.srcRow (aE m c))) (Cert.Spec.norm (Cert.Spec.dinv (Cert.Spec.dstRow (aE m c))) (Cert.Spec.wrapCol (Cert.Spec.srcRow (aE m c))) (Cert.Spec.wrapCol (Cert.Spec.dstRow (aE m c)))) (Cert.Spec.dense2 (Cert.Spec.conv (aE m c) (Cert.Spec.dense1 (aX m c) (aW1 m c)) (aB1 m c)) (aW2 m c)) := by
  refine Eq.trans (b := ?mid) ?h1 ?h2
  case h1 => show StableHlo.after hostOps3 (W5 m ρ c) (Proc.devRef .tc main_v57) = _; after_results_simp; rfl
  case h2 => rw [W5_v3, W5_v1, W5_v25, W5_v44]; try rfl
theorem W6_v44 (c : Dev nD) : W6 m ρ c (Proc.devRef .tc main_v44) = Cert.Spec.dense2 (Cert.Spec.conv (aE m c) (Cert.Spec.dense1 (aX m c) (aW1 m c)) (aB1 m c)) (aW2 m c) := by
  refine Eq.trans (b := ?mid) ?h1 ?h2
  case h1 => show StableHlo.after hostOps3 (W5 m ρ c) (Proc.devRef .tc main_v44) = _; after_results_simp; rfl
  case h2 => exact W5_v44 m ρ c
theorem W6_v59 (c : Dev nD) : W6 m ρ c (Proc.devRef .tc main_v59) = shapeCast S50000x1 (mulf (F := Ideal) (φ := .f32) (Cert.Spec.dinv (Cert.Spec.dstRow (aE m c))) (Cert.Spec.dinv (Cert.Spec.dstRow (aE m c)))) shapeCasts_S50000_S50000x1 := by
  refine Eq.trans (b := ?mid) ?h1 ?h2
  case h1 => show StableHlo.after hostOps3 (W5 m ρ c) (Proc.devRef .tc main_v59) = _; after_results_simp; rfl
  case h2 => rw [W5_v10]; try rfl
theorem W6_v60 (c : Dev nD) : W6 m ρ c (Proc.devRef .tc main_v60) = shapeCast S1x96 (aB2 m c) shapeCasts_S96_S1x96 := by
  refine Eq.trans (b := ?mid) ?h1 ?h2
  case h1 => show StableHlo.after hostOps3 (W5 m ρ c) (Proc.devRef .tc main_v60) = _; after_results_simp; rfl
  case h2 => rw [W5_arg5]; try rfl
theorem W6_arg6 (c : Dev nD) : W6 m ρ c (Proc.devRef .tc main_arg6) = aWC m c := by
  refine Eq.trans (b := ?mid) ?h1 ?h2
  case h1 => show StableHlo.after hostOps3 (W5 m ρ c) (Proc.devRef .tc main_arg6) = _; after_results_simp; rfl
  case h2 => exact W5_arg6 m ρ c
theorem W6_arg7 (c : Dev nD) : W6 m ρ c (Proc.devRef .tc main_arg7) = aBC m c := by
  refine Eq.trans (b := ?mid) ?h1 ?h2
  case h1 => show StableHlo.after hostOps3 (W5 m ρ c) (Proc.devRef .tc main_arg7) = _; after_results_simp; rfl
  case h2 => exact W5_arg7 m ρ c

/-! ## At the fourth region's exit: the second layer's output -/
theorem W7_v61 (c : Dev nD) : W7 m ρ c (Proc.devRef .tc main_v61) = Cert.Spec.conv (aE m c) (Cert.Spec.dense2 (Cert.Spec.conv (aE m c) (Cert.Spec.dense1 (aX m c) (aW1 m c)) (aB1 m c)) (aW2 m c)) (aB2 m c) :=
  (W7_arr m ρ c 4).trans ((Cert.KernelIdeal.CR3.final (V6 m ρ) c).trans (by
    show Cert.Spec.combine (W6 m ρ c (Proc.devRef .tc main_v57)) (W6 m ρ c (Proc.devRef .tc main_v44)) (W6 m ρ c (Proc.devRef .tc main_v59)) (W6 m ρ c (Proc.devRef .tc main_v60)) = _
    rw [W6_v57, W6_v44, W6_v59, W6_v60, ← Cert.Spec.layer_eq_combine]
    rfl))
theorem W7_arg6 (c : Dev nD) : W7 m ρ c (Proc.devRef .tc main_arg6) = aWC m c :=
  (W7_of_ne m ρ c main_arg6 (by decide)).trans (W6_arg6 m ρ c)
theorem W7_arg7 (c : Dev nD) : W7 m ρ c (Proc.devRef .tc main_arg7) = aBC m c :=
  (W7_of_ne m ρ c main_arg7 (by decide)).trans (W6_arg7 m ρ c)

/-! ## The head and the log-softmax -/
theorem W8_v65 (c : Dev nD) : W8 m ρ c (Proc.devRef .tc main_v65) = Cert.Spec.logits (Cert.Spec.conv (aE m c) (Cert.Spec.dense2 (Cert.Spec.conv (aE m c) (Cert.Spec.dense1 (aX m c) (aW1 m c)) (aB1 m c)) (aW2 m c)) (aB2 m c)) (aWC m c) (aBC m c) := by
  refine Eq.trans (b := ?mid) ?h1 ?h2
  case h1 => show StableHlo.after hostOps4 (W7 m ρ c) (Proc.devRef .tc main_v65) = _; after_results_simp; rfl
  case h2 => rw [W7_v61, W7_arg6, W7_arg7]; try rfl
theorem W9_v66 (c : Dev nD) : W9 m ρ c (Proc.devRef .tc main_v66) = Cert.Spec.logSoftmax (Cert.Spec.logits (Cert.Spec.conv (aE m c) (Cert.Spec.dense2 (Cert.Spec.conv (aE m c) (Cert.Spec.dense1 (aX m c) (aW1 m c)) (aB1 m c)) (aW2 m c)) (aB2 m c)) (aWC m c) (aBC m c)) := by
  refine Eq.trans (b := ?mid) ?h1 ?h2
  case h1 => show StableHlo.after hostOps4_1 (W8 m ρ c) (Proc.devRef .tc main_v66) = _; after_results_simp; rfl
  case h2 =>
    simp only [TRef.ofBuf, TRef.toBuf, cast_eq]
    rw [W7_v61, W7_arg6, W7_arg7]; try rfl

/-- The result buffer at the return is the specification's `result` of the arguments' launch contents. -/
theorem kernel_value (c : Dev nD) :
    W9 m ρ c (Proc.devRef .tc main_v66) = Cert.Spec.result (aX m c) (aE m c) (aW1 m c) (aB1 m c) (aW2 m c) (aB2 m c) (aWC m c) (aBC m c) :=
  W9_v66 m ρ c

end Cert.KernelIdeal.Chain

end
-- ==== Proof.RefSide.lean ====
/-
  The reference program's composed result is the specification `Cert.Spec.result` of its eight arguments: the stages of
  the specification are spelt with the reference's own host operations, so the two terms are one by unfolding the stages.
-/
import proofs.«122172_j22325240005451_1_alg».proof.Proof.RefRun
import proofs.«122172_j22325240005451_1_alg».proof.Proof.Spec

set_option maxRecDepth 131072

noncomputable section

namespace Cert.ReferenceIdeal.RefSide

open Idealize.ShloMosaic Idealize.ShloMosaic.TcCoe Idealize.SL.Sem
open Cert.ReferenceIdeal Cert.ReferenceIdeal.Gen

variable {F : FTy → Type} [FloatOps F]

/-- The reference's result term is `result` of the launch contents of its arguments. -/
theorem result_eq (m : (ℓ : Loc nD τ sig) → Buf (Elt F) ℓ) (c : Dev nD) :
    Cert.ReferenceIdeal.ValueP.res_main_v98 m c
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v98 Cert.Spec.result Cert.Spec.logSoftmax Cert.Spec.shifted Cert.Spec.logits
    Cert.Spec.conv Cert.Spec.layer Cert.Spec.agg Cert.Spec.norm Cert.Spec.dinv Cert.Spec.wrapCol Cert.Spec.dense1 Cert.Spec.dense2
    Cert.Spec.srcRow Cert.Spec.dstRow
  rfl

end Cert.ReferenceIdeal.RefSide

end
-- ==== Proof.lean ====
/-
  The certificate of a two-layer graph convolution (50000 nodes, 800000 edges, features 128 -> 96 -> 96 -> 2, a linear
  head and a log-softmax) whose dense products and whose per-layer elementwise step run as four tiled kernel regions,
  against the plain host reference.

  Over the extended reals both programs compute ONE function of the eight arguments, `Cert.Spec.result`:
    * the reference's composed result is `result` by unfolding its stages;
    * in the kernel program every host stretch is the same chain of host operations as the reference's, each dense-product
      region leaves the whole product in its output array (row block t holds rows 5000 t ... of the product, a sum over
      the contracted axis in either program; the roundings to bf16 are the identity here), and each elementwise region
      leaves max (agg + h * d^2 + b, 0) entry by entry, the reference's broadcasts of the squared normaliser and of the bias
      read at an entry. No law that needs finiteness is used: the two sides agree term by term.
  The frames of the two kernel programs are the generated ones; the reference's frame is its run with the result dropped;
  the ideal pass rewrote nothing, so `preserves` is trivial.
-/
import proofs.«122172_j22325240005451_1_alg».proof.Defs
import proofs.«122172_j22325240005451_1_alg».proof.Proof.Gen.Kernel
import proofs.«122172_j22325240005451_1_alg».proof.Proof.Gen.Kernel.Frame
import proofs.«122172_j22325240005451_1_alg».proof.Proof.Gen.KernelIdeal
import proofs.«122172_j22325240005451_1_alg».proof.Proof.Gen.KernelIdeal.Frame
import proofs.«122172_j22325240005451_1_alg».proof.Proof.Gen.ReferenceIdeal
import proofs.«122172_j22325240005451_1_alg».proof.Proof.Gen.Pre_finite_inputs
import proofs.«122172_j22325240005451_1_alg».proof.Proof.KernelRun
import proofs.«122172_j22325240005451_1_alg».proof.Proof.ChainB
import proofs.«122172_j22325240005451_1_alg».proof.Proof.RefRun
import proofs.«122172_j22325240005451_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result buffer at `result` of the kernel program's arguments: the kernel program by its
    boundaries' values, the reference by its composed term, the arguments' agreement rewritten. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.kernel_value m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefSide.result_eq m' c, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
